-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x64 .f32) (main_arg3 : FVec F S64 .f32) (main_arg4 : FVec F S64x32 .f32) (main_arg5 : FVec F S32 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S2000x256 : Shape := ⟨2, ![2000, 256]⟩
abbrev S2000x64 : Shape := ⟨2, ![2000, 64]⟩
abbrev S850000x64 : Shape := ⟨2, ![850000, 64]⟩
abbrev S10000x64 : Shape := ⟨2, ![10000, 64]⟩
abbrev S10000x1 : Shape := ⟨2, ![10000, 1]⟩
abbrev S1x64 : Shape := ⟨2, ![1, 64]⟩
abbrev S50000x32 : Shape := ⟨2, ![50000, 32]⟩
abbrev S2000x32 : Shape := ⟨2, ![2000, 32]⟩
abbrev S850000x32 : Shape := ⟨2, ![850000, 32]⟩
abbrev S10000x32 : Shape := ⟨2, ![10000, 32]⟩
abbrev S1x32 : Shape := ⟨2, ![1, 32]⟩

abbrev nBuf : Space → Nat
  | .hbm => 74
  | .vmem => 23
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S850000x1, .f32⟩
  | .hbm, ⟨40, _⟩ => ⟨S50000x64, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000x64, .f32⟩
  | .hbm, ⟨50, _⟩ => ⟨S850000x64, .f32⟩
  | .hbm, ⟨51, _⟩ => ⟨S_, .f32⟩
  | .hbm, ⟨52, _⟩ => ⟨S50000x64, .f32⟩
  | .hbm, ⟨53, _⟩ => ⟨S850000x1, .i32⟩
  | .hbm, ⟨54, _⟩ => ⟨S50000x64, .f32⟩
  | .hbm, ⟨55, _⟩ => ⟨S1x64, .f32⟩
  | .hbm, ⟨56, _⟩ => ⟨S50000x32, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x32, .f32⟩
  | .hbm, ⟨66, _⟩ => ⟨S850000x32, .f32⟩
  | .hbm, ⟨67, _⟩ => ⟨S_, .f32⟩
  | .hbm, ⟨68, _⟩ => ⟨S50000x32, .f32⟩
  | .hbm, ⟨69, _⟩ => ⟨S850000x1, .i32⟩
  | .hbm, ⟨70, _⟩ => ⟨S50000x32, .f32⟩
  | .hbm, ⟨71, _⟩ => ⟨S1x32, .f32⟩
  | .hbm, ⟨72, _⟩ => ⟨S50000x32, .f32⟩
  | .hbm, ⟨73, _⟩ => ⟨S50000x32, .f32⟩
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S2000x64, .f32⟩
  | .local _ .vmem, ⟨4, _⟩ => ⟨S2000x64, .f32⟩
  | .local _ .vmem, ⟨5, _⟩ => ⟨S10000x64, .f32⟩
  | .local _ .vmem, ⟨6, _⟩ => ⟨S10000x64, .f32⟩
  | .local _ .vmem, ⟨7, _⟩ => ⟨S10000x1, .f32⟩
  | .local _ .vmem, ⟨8, _⟩ => ⟨S10000x1, .f32⟩
  | .local _ .vmem, ⟨9, _⟩ => ⟨S10000x64, .f32⟩
  | .local _ .vmem, ⟨10, _⟩ => ⟨S10000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S64x32, .f32⟩
  | .local _ .vmem, ⟨15, _⟩ => ⟨S2000x32, .f32⟩
  | .local _ .vmem, ⟨16, _⟩ => ⟨S2000x32, .f32⟩
  | .local _ .vmem, ⟨17, _⟩ => ⟨S10000x32, .f32⟩
  | .local _ .vmem, ⟨18, _⟩ => ⟨S10000x32, .f32⟩
  | .local _ .vmem, ⟨19, _⟩ => ⟨S10000x1, .f32⟩
  | .local _ .vmem, ⟨20, _⟩ => ⟨S10000x1, .f32⟩
  | .local _ .vmem, ⟨21, _⟩ => ⟨S10000x32, .f32⟩
  | .local _ .vmem, ⟨22, _⟩ => ⟨S10000x32, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![85], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![85], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S850000_S850000x1 : S850000.ShapeCasts S850000x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  broadcasts_S10000x1_S10000x32 : S10000x1.Broadcasts S10000x32
  bcast_S_S50000x32 : S_.BroadcastsInDim S50000x32 (![] : Fin 0 → Fin S50000x32.rank)
  shapeCasts_S32_S1x32 : S32.ShapeCasts S1x32
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x64_S2000x64_1_0_0_1_n_n_wf : DotDims.WF S2000x256 S256x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x32_S2000x32_1_0_0_1_n_n_wf : DotDims.WF S2000x64 S64x32 S2000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S850000x64.size a
  hwx1_0 : ∀ i : grid1.Coords, EltTy.bits .f32 = 32 ∨ (Rect.block (s := S850000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S850000x1.size a
  hwx1_1 : ∀ i : grid1.Coords, EltTy.bits .f32 = 32 ∨ (Rect.block (s := S850000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S850000x64.size a
  hwx1_2 : ∀ i : grid1.Coords, EltTy.bits .f32 = 32 ∨ (Rect.block (s := S850000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x32.size a ≤ S50000x32.size a
  hwx2_3 : ∀ i : grid2.Coords, EltTy.bits .f32 = 32 ∨ (Rect.block (s := S50000x32) S2000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S850000x32.size a
  hwx3_0 : ∀ i : grid3.Coords, EltTy.bits .f32 = 32 ∨ (Rect.block (s := S850000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S850000x1.size a
  hwx3_1 : ∀ i : grid3.Coords, EltTy.bits .f32 = 32 ∨ (Rect.block (s := S850000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S850000x32.size a
  hwx3_2 : ∀ i : grid3.Coords, EltTy.bits .f32 = 32 ∨ (Rect.block (s := S850000x32) S10000x32.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S2000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v48) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x64 : Shape := ⟨2, ![256, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x64 : Shape := ⟨2, ![50000, 64]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩

abbrev nBuf : Space → Nat
  | .hbm => 108
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x64, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S850000, .i32⟩
  | .hbm, ⟨23, _⟩ => ⟨S850000, .i1⟩
  | .hbm, ⟨24, _⟩ => ⟨S_, .i32⟩
  | .hbm, ⟨25, _⟩ => ⟨S850000, .i32⟩
  | .hbm, ⟨26, _⟩ => ⟨S850000, .i32⟩
  | .hbm, ⟨27, _⟩ => ⟨S850000, .i32⟩
  | .hbm, ⟨28, _⟩ => ⟨S850000x1, .i32⟩
  | .hbm, ⟨29, _⟩ => ⟨S850000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x64, .f32⟩
  | .hbm, ⟨49, _⟩ => ⟨S850000x1, .f32⟩
  | .hbm, ⟨50, _⟩ => ⟨S850000x64, .f32⟩
  | .hbm, ⟨51, _⟩ => ⟨S850000x64, .f32⟩
  | .hbm, ⟨52, _⟩ => ⟨S_, .f32⟩
  | .hbm, ⟨53, _⟩ => ⟨S50000x64, .f32⟩
  | .hbm, ⟨54, _⟩ => ⟨S850000x1, .i32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S50000x32, .f32⟩
  | .hbm, ⟨63, _⟩ => ⟨S_, .f32⟩
  | .hbm, ⟨64, _⟩ => ⟨S850000, .f32⟩
  | .hbm, ⟨65, _⟩ => ⟨S_, .f32⟩
  | .hbm, ⟨66, _⟩ => ⟨S50000, .f32⟩
  | .hbm, ⟨67, _⟩ => ⟨S850000x1, .i32⟩
  | .hbm, ⟨68, _⟩ => ⟨S50000, .f32⟩
  | .hbm, ⟨69, _⟩ => ⟨S50000, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S850000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x32, .f32⟩
  | .hbm, ⟨98, _⟩ => ⟨S850000x1, .f32⟩
  | .hbm, ⟨99, _⟩ => ⟨S850000x32, .f32⟩
  | .hbm, ⟨100, _⟩ => ⟨S850000x32, .f32⟩
  | .hbm, ⟨101, _⟩ => ⟨S_, .f32⟩
  | .hbm, ⟨102, _⟩ => ⟨S50000x32, .f32⟩
  | .hbm, ⟨103, _⟩ => ⟨S850000x1, .i32⟩
  | .hbm, ⟨104, _⟩ => ⟨S50000x32, .f32⟩
  | .hbm, ⟨105, _⟩ => ⟨S1x32, .f32⟩
  | .hbm, ⟨106, _⟩ => ⟨S50000x32, .f32⟩
  | .hbm, ⟨107, _⟩ => ⟨S50000x32, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  dot_S50000x256_S256x64_S50000x64_1_0_0_1_n_n_wf : DotDims.WF S50000x256 S256x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.LibGraphConv.lean ====
/-
  One graph-convolution layer, piece by piece, at the ideal values and for any sizes.

  * A column [R, 1] broadcast along the rows to [R, n] reads at (p, q) as the column at (p, 0); a row [1, n] broadcast
    down the columns to [R, n] reads at (p, q) as the row at (0, q).
  * rowScale h s: row p of h multiplied by the one number s(p, 0).
  * matProd A B: the matrix product, entry (p, q) the sum over k of A(p, k) · B(k, q).
  * biasFloorProd z o b W: the product of max(o + b, z) with W, the row b added to every row of o.
  Then: the vector operations that compute these on a block (shape casts to the same shape, the two broadcasts, a
  narrowing of the float format, a product into the zero accumulator) ARE these functions, and so are the host's
  product of two matrices and its elementwise forms once the broadcast operands are known entry by entry.
-/
import Idealize.ShloMosaic.Lib.ValueIdx
import Idealize.ShloMosaic.Lib.Pipeline.Value
import Idealize.ShloMosaic.PureOps.Ideal.Laws
import proofs.«125170_j28656021799465_1_alg».proof.Proof.LibOuterDot

noncomputable section

open scoped BigOperators

namespace Cert.LibGraphConv

open Idealize.ShloMosaic Idealize.ShloMosaic.ValueIdx Cert.LibOuterDot

/-! ## The two broadcasts of a thin matrix -/

/-- A column broadcast along the rows: entry (p, q) is the column's entry (p, 0). -/
theorem broadcastTo_col_apply {α : Type} (R n : ℕ) (v : (⟨2, ![R, 1]⟩ : Shape).Idx → α)
    (h : (⟨2, ![R, 1]⟩ : Shape).Broadcasts ⟨2, ![R, n]⟩) (p : Fin R) (q : Fin n) :
    broadcastTo ⟨2, ![R, n]⟩ v h (ix2 p q) = v (ix2 p (0 : Fin 1)) := by
  refine broadcastTo_apply v h (ix2 p q) (ix2 p (0 : Fin 1)) ?_
  intro a
  match a with
  | ⟨0, _⟩ =>
    show p.val = if R = 1 then 0 else p.val
    split
    · have := p.isLt; omega
    · rfl
  | ⟨1, _⟩ => rfl

/-- A row broadcast down the columns: entry (p, q) is the row's entry (0, q). -/
theorem broadcastTo_row_apply {α : Type} (R n : ℕ) (v : (⟨2, ![1, n]⟩ : Shape).Idx → α)
    (h : (⟨2, ![1, n]⟩ : Shape).Broadcasts ⟨2, ![R, n]⟩) (p : Fin R) (q : Fin n) :
    broadcastTo ⟨2, ![R, n]⟩ v h (ix2 p q) = v (ix2 (0 : Fin 1) q) := by
  refine broadcastTo_apply v h (ix2 p q) (ix2 (0 : Fin 1) q) ?_
  intro a
  match a with
  | ⟨0, _⟩ => rfl
  | ⟨1, _⟩ =>
    show q.val = if n = 1 then 0 else q.val
    split
    · have := q.isLt; omega
    · rfl

/-! ## The three whole-matrix functions -/

/-- Row p of h times the number s(p, 0). -/
def rowScale {E n : ℕ} (h : FVec Ideal ⟨2, ![E, n]⟩ .f32) (s : FVec Ideal ⟨2, ![E, 1]⟩ .f32) : FVec Ideal ⟨2, ![E, n]⟩ .f32 :=
  fun j => h j * s (ix2 (j 0) (0 : Fin 1))

theorem rowScale_ix2 {E n : ℕ} (h : FVec Ideal ⟨2, ![E, n]⟩ .f32) (s : FVec Ideal ⟨2, ![E, 1]⟩ .f32) (p : Fin E) (q : Fin n) :
    rowScale h s (ix2 p q) = h (ix2 p q) * s (ix2 p (0 : Fin 1)) := rfl

/-- The matrix product: entry (p, q) is the sum over k of A(p, k) · B(k, q). -/
def matProd {M K N : ℕ} (A : FVec Ideal ⟨2, ![M, K]⟩ .f32) (B : FVec Ideal ⟨2, ![K, N]⟩ .f32) : FVec Ideal ⟨2, ![M, N]⟩ .f32 :=
  fun j => ∑ k : Fin K, A (ix2 (j 0) k) * B (ix2 k (j 1))

theorem matProd_ix2 {M K N : ℕ} (A : FVec Ideal ⟨2, ![M, K]⟩ .f32) (B : FVec Ideal ⟨2, ![K, N]⟩ .f32) (p : Fin M) (q : Fin N) :
    matProd A B (ix2 p q) = ∑ k : Fin K, A (ix2 p k) * B (ix2 k q) := rfl

/-- The product of max(o + b, z) with W, the row b added to every row of o: entry (p, q) is the sum over k of
    max(o(p, k) + b(0, k), z) · W(k, q). -/
def biasFloorProd {M K N : ℕ} (z : EReal) (o : FVec Ideal ⟨2, ![M, K]⟩ .f32) (b : FVec Ideal ⟨2, ![1, K]⟩ .f32)
    (W : FVec Ideal ⟨2, ![K, N]⟩ .f32) : FVec Ideal ⟨2, ![M, N]⟩ .f32 :=
  fun j => ∑ k : Fin K, max (o (ix2 (j 0) k) + b (ix2 (0 : Fin 1) k)) z * W (ix2 k (j 1))

theorem biasFloorProd_ix2 {M K N : ℕ} (z : EReal) (o : FVec Ideal ⟨2, ![M, K]⟩ .f32) (b : FVec Ideal ⟨2, ![1, K]⟩ .f32)
    (W : FVec Ideal ⟨2, ![K, N]⟩ .f32) (p : Fin M) (q : Fin N) :
    biasFloorProd z o b W (ix2 p q) = ∑ k : Fin K, max (o (ix2 p k) + b (ix2 (0 : Fin 1) k)) z * W (ix2 k q) := rfl

/-! ## The vector operations on a block are these functions -/

/-- A block times a column broadcast along its rows is the row scaling. -/
theorem rowScale_block (R n : ℕ) (v0 : FVec Ideal ⟨2, ![R, n]⟩ .f32) (v2 : FVec Ideal ⟨2, ![R, 1]⟩ .f32)
    (h1 : (⟨2, ![R, n]⟩ : Shape).ShapeCasts ⟨2, ![R, n]⟩) (h2 : (⟨2, ![R, 1]⟩ : Shape).ShapeCasts ⟨2, ![R, 1]⟩)
    (h3 : (⟨2, ![R, 1]⟩ : Shape).Broadcasts ⟨2, ![R, n]⟩) :
    mulf (shapeCast ⟨2, ![R, n]⟩ v0 h1) (broadcastTo ⟨2, ![R, n]⟩ (shapeCast ⟨2, ![R, 1]⟩ v2 h2) h3) = rowScale v0 v2 := by
  funext j
  obtain ⟨p, q, rfl⟩ : ∃ (p : Fin R) (q : Fin n), j = ix2 p q := ⟨j 0, j 1, eq_ix2 j⟩
  rw [mulf_apply, shapeCast_self, shapeCast_self, broadcastTo_col_apply]
  rfl

/-- A product of two blocks narrowed to a shorter float format, into the zero accumulator, is the matrix product:
    narrowing is the identity on the ideal values. -/
theorem matProd_block {M K N : ℕ} {ψ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (hb : ψ.bits < FTy.f32.bits)
    (v0 : FVec Ideal ⟨2, ![M, K]⟩ .f32) (v2 : FVec Ideal ⟨2, ![K, N]⟩ .f32) :
    matmul d prec (truncf ψ v0 hb) (truncf ψ v2 hb) (constant ⟨2, ![M, N]⟩ .f32 0x00000000#32) = matProd v0 v2 := by
  funext j
  obtain ⟨p, q, rfl⟩ : ∃ (p : Fin M) (q : Fin N), j = ix2 p q := ⟨j 0, j 1, eq_ix2 j⟩
  refine (matmul_zero_ix2 d hr hs hlc hrc hln hrn hlb hrb prec (truncf ψ v0 hb) (truncf ψ v2 hb) p q).trans ?_
  rfl

/-- The same product with its left block first shifted by a row and cut off from below at a splat number. -/
theorem biasFloorProd_block {M K N : ℕ} {ψ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (hb : ψ.bits < FTy.f32.bits) (w : BitVec 32)
    (v0 : FVec Ideal ⟨2, ![M, K]⟩ .f32) (v2 : FVec Ideal ⟨2, ![1, K]⟩ .f32) (v9 : FVec Ideal ⟨2, ![K, N]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) :
    matmul d prec
        (truncf ψ (maximumf (addf (shapeCast ⟨2, ![M, K]⟩ v0 h1) (broadcastTo ⟨2, ![M, K]⟩ (shapeCast ⟨2, ![1, K]⟩ v2 h2) h3))
          (broadcast ⟨2, ![M, K]⟩ (Scalar.ofBits (F := Ideal) .f32 w))) hb)
        (truncf ψ v9 hb) (constant ⟨2, ![M, N]⟩ .f32 0x00000000#32)
      = biasFloorProd (Ideal.ofBits .f32 w) v0 v2 v9 := by
  funext j
  obtain ⟨p, q, rfl⟩ : ∃ (p : Fin M) (q : Fin N), j = ix2 p q := ⟨j 0, j 1, eq_ix2 j⟩
  refine (matmul_zero_ix2 d hr hs hlc hrc hln hrn hlb hrb prec _ (truncf ψ v9 hb) p q).trans ?_
  refine Finset.sum_congr rfl fun k _ => ?_
  show max ((shapeCast ⟨2, ![M, K]⟩ v0 h1) (ix2 p k) + broadcastTo ⟨2, ![M, K]⟩ (shapeCast ⟨2, ![1, K]⟩ v2 h2) h3 (ix2 p k))
      (Ideal.ofBits .f32 w) * v9 (ix2 k q) = _
  rw [shapeCast_self, shapeCast_self, broadcastTo_row_apply]
  rfl

/-! ## The host's forms -/

/-- The host's product of two matrices is the matrix product. -/
theorem hostProd_eq {M K N : ℕ}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ .f32) (B : FVec Ideal ⟨2, ![K, N]⟩ .f32) :
    Host.dotGeneral d prec A B = matProd A B := by
  funext j
  obtain ⟨p, q, rfl⟩ : ∃ (p : Fin M) (q : Fin N), j = ix2 p q := ⟨j 0, j 1, eq_ix2 j⟩
  simp only [Host.dotGeneral]
  rw [Ideal.dotGeneral_apply, ← Equiv.sum_comp (contrEquiv1 d K hr hs).symm, matProd_ix2]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_free_val d 0 0 hlb hln rfl _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_free_val d 1 1 0 hlb hrb hln hrn rfl _ _)
  rw [el, er]

/-- The host's product with its left matrix first shifted and cut off from below, the shift a matrix whose every row is
    b and the floor a matrix whose every entry is z. -/
theorem hostBiasFloorProd_eq {M K N : ℕ}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (z : EReal) (o rows floor : FVec Ideal ⟨2, ![M, K]⟩ .f32) (b : FVec Ideal ⟨2, ![1, K]⟩ .f32)
    (W : FVec Ideal ⟨2, ![K, N]⟩ .f32) (hrows : ∀ (p : Fin M) (k : Fin K), rows (ix2 p k) = b (ix2 (0 : Fin 1) k))
    (hfloor : ∀ i, floor i = z) :
    Host.dotGeneral d prec (maximumf (addf o rows) floor) W = biasFloorProd z o b W := by
  rw [hostProd_eq d hr hs hlc hrc hln hrn hlb hrb]
  funext j
  obtain ⟨p, q, rfl⟩ : ∃ (p : Fin M) (q : Fin N), j = ix2 p q := ⟨j 0, j 1, eq_ix2 j⟩
  rw [matProd_ix2, biasFloorProd_ix2]
  refine Finset.sum_congr rfl fun k _ => ?_
  rw [maximumf_apply, addf_apply, hrows, hfloor]

/-- The host's elementwise product with a matrix whose row p is constantly s(p, 0) is the row scaling. -/
theorem hostRowScale_eq {E n : ℕ} (h cols : FVec Ideal ⟨2, ![E, n]⟩ .f32) (s : FVec Ideal ⟨2, ![E, 1]⟩ .f32)
    (hcols : ∀ (p : Fin E) (q : Fin n), cols (ix2 p q) = s (ix2 p (0 : Fin 1))) :
    mulf h cols = rowScale h s := by
  funext j
  obtain ⟨p, q, rfl⟩ : ∃ (p : Fin E) (q : Fin n), j = ix2 p q := ⟨j 0, j 1, eq_ix2 j⟩
  rw [mulf_apply, hcols, rowScale_ix2]

end Cert.LibGraphConv

end
-- ==== Proof.Dense64.lean ====
/-
  The pallas_call that multiplies the node features by the first weight matrix: its output array after the run, as one
  function of the arrays it finds. Grid point t holds rows 2000·t … 2000·t + 1999 of the features and the whole weight
  matrix, and writes back their product, which is block t of the matrix product of the two arrays: row r of a product
  needs row r of the left matrix only. The 25 blocks tile the 50000 rows.
-/
import proofs.«125170_j28656021799465_1_alg».proof.Proof.Gen.KernelIdeal.Frame
import proofs.«125170_j28656021799465_1_alg».proof.Proof.LibGraphConv

set_option maxRecDepth 16384

noncomputable section

namespace Cert.KernelIdeal.Dense64

open Cert.KernelIdeal Cert.KernelIdeal.Gen Idealize.ShloMosaic Idealize.ShloMosaic.TcCoe Idealize.ShloMosaic.ValueIdx
open Idealize.SL.Sem Idealize.ShloMosaic.Pipeline Cert.LibGraphConv
open scoped BigOperators

variable (V : (c : Dev nD) → (b : Ref sig .tc) → Buf (Elt Ideal) ((c : Thread nD τ).loc b))

/-- The node features as the region finds them. -/
abbrev featArr (c : Dev nD) : FVec Ideal S50000x256 .f32 := V c main_arg0
/-- The weight matrix as the region finds it. -/
abbrev coefArr (c : Dev nD) : FVec Ideal S256x64 .f32 := V c main_arg2

theorem zeroOff : (![0, 0] : Fin 2 → Nat) = fun _ => 0 := funext fun a => by fin_cases a <;> rfl

/-- The body's one stored value is the matrix product of its two loaded blocks. -/
theorem payload_eq (x0 : FVec Ideal S2000x256 .f32) (x1 : FVec Ideal S256x64 .f32) : k0_pay1 x0 x1 = matProd x0 x1 :=
  matProd_block dot_S2000x256_S256x64_S2000x64_1_0_0_1_n_n rfl rfl rfl rfl rfl rfl rfl rfl none bitsLt_bf16_f32 x0 x1

/-- At point t the features' and the output's windows sit at block row t, the weight matrix's at its one block. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row is some point's. -/
theorem blockOnto : ∀ q0 : Fin 25, ∃ t : Fin cfg0.N, win0_2.index t = ![q0.val, 0] :=
  (by decide +kernel : ∀ q0 : Fin 25, ∃ t : Fin grid0.N, win0_2.index t = ![q0.val, 0])

/-- What point t writes back is block t of the matrix product of the two arrays. -/
theorem flushed_eq (c : Dev nD) (t : Fin cfg0.N) :
    (dat0 V c).flushed 2 t = ((cfg0.win 2).blk t).view.read (Elt Ideal) (matProd (featArr V c) (coefArr V c)) := by
  show (cfg0.win 2).cut (grid0.coords t) ((dat0 V c).after 2 t) = _
  rw [after0_2]
  unfold out0_2
  rw [View.canon_unit_zero zeroOff]
  simp only [View.ld_unit_zero (S := S2000x256) zeroOff, View.ld_unit_zero (S := S256x64) zeroOff]
  rw [payload_eq]
  obtain ⟨e0, e1, e2, e3, e4, e5⟩ := blockIndex t
  funext j
  show (∑ k : Fin 256, featArr V c (((cfg0.win 0).blk t).view.emb (ix2 (j 0) k)) * coefArr V c (((cfg0.win 1).blk t).view.emb (ix2 k (j 1))))
      = ∑ k : Fin 256, featArr V c (ix2 ((((cfg0.win 2).blk t).view.emb j) 0) k) * coefArr V c (ix2 k ((((cfg0.win 2).blk t).view.emb j) 1))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega
  exact congrArg₂ (· * ·) (congrArg (featArr V c) h0) (congrArg (coefArr V c) h1)

/-- An index of the output array is in point t's block iff each coordinate is in the block's range on its axis. -/
theorem mem_block (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v28).slice (win0_2.rect t)).set ↔ _
  rw [View.set_slice_whole, Rect.mem_set_unit]
  exact Iff.rfl

/-- Row r lies in the block of point r / 2000. -/
theorem covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := blockOnto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The output array after the run: the matrix product of the two arrays the region finds. -/
theorem final (c : Dev nD) : (dat0 V c).arrAt 2 cfg0.N = matProd (featArr V c) (coefArr V c) :=
  (dat0 V c).arrAt_eq_of_cover 2 _ (fun t _ => flushed_eq V c t) (covered)

end Cert.KernelIdeal.Dense64

end
-- ==== Proof.Scale64.lean ====
/-
  The pallas_call that scales the gathered rows (64 columns): its output array after the run, as one function of the
  arrays it finds. Each grid point t works on rows 10000·t … 10000·t + 9999: it multiplies the block of gathered rows
  by the block of edge weights, a column broadcast along the rows, so what it writes back is block t of
  rowScale (gathered rows) (edge weights); the 85 blocks tile the 850000 rows.
-/
import proofs.«125170_j28656021799465_1_alg».proof.Proof.Gen.KernelIdeal.Frame
import proofs.«125170_j28656021799465_1_alg».proof.Proof.LibGraphConv

set_option maxRecDepth 16384

noncomputable section

namespace Cert.KernelIdeal.Scale64

open Cert.KernelIdeal Cert.KernelIdeal.Gen Idealize.ShloMosaic Idealize.ShloMosaic.TcCoe Idealize.ShloMosaic.ValueIdx
open Idealize.SL.Sem Idealize.ShloMosaic.Pipeline Cert.LibGraphConv

variable (V : (c : Dev nD) → (b : Ref sig .tc) → Buf (Elt Ideal) ((c : Thread nD τ).loc b))

/-- The gathered rows as the region finds them. -/
abbrev rowsArr (c : Dev nD) : FVec Ideal S850000x64 .f32 := V c main_v35
/-- The edge weights as the region finds them, one per row. -/
abbrev weightArr (c : Dev nD) : FVec Ideal S850000x1 .f32 := V c main_v27

theorem zeroOff : (![0, 0] : Fin 2 → Nat) = fun _ => 0 := funext fun a => by fin_cases a <;> rfl

/-- The body's one stored value is the row scaling of its two loaded blocks. -/
theorem payload_eq (x0 : FVec Ideal S10000x64 .f32) (x1 : FVec Ideal S10000x1 .f32) : k1_pay1 x0 x1 = rowScale x0 x1 :=
  rowScale_block 10000 64 x0 x1 _ _ _

/-- All three windows sit at block row t, block column 0, at point t. -/
theorem blockIndex : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Every block row is some point's. -/
theorem blockOnto : ∀ q0 : Fin 85, ∃ t : Fin cfg1.N, win1_2.index t = ![q0.val, 0] :=
  (by decide +kernel : ∀ q0 : Fin 85, ∃ t : Fin grid1.N, win1_2.index t = ![q0.val, 0])

/-- What point t writes back is block t of the row scaling of the two arrays. -/
theorem flushed_eq (c : Dev nD) (t : Fin cfg1.N) :
    (dat1 V c).flushed 2 t = ((cfg1.win 2).blk t).view.read (Elt Ideal) (rowScale (rowsArr V c) (weightArr V c)) := by
  show (cfg1.win 2).cut (grid1.coords t) ((dat1 V c).after 2 t) = _
  rw [after1_2]
  unfold out1_2
  rw [View.canon_unit_zero zeroOff]
  simp only [View.ld_unit_zero (S := S10000x64) zeroOff, View.ld_unit_zero (S := S10000x1) zeroOff]
  rw [payload_eq]
  obtain ⟨e0, e1, e2, e3, e4, e5⟩ := blockIndex t
  funext j
  show rowsArr V c (((cfg1.win 0).blk t).view.emb j) * weightArr V c (((cfg1.win 1).blk t).view.emb (ix2 (j 0) (0 : Fin 1)))
      = rowsArr V c (((cfg1.win 2).blk t).view.emb j) * weightArr V c (ix2 ((((cfg1.win 2).blk t).view.emb j) 0) (0 : Fin 1))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (j 0) (0 : Fin 1)) = ix2 ((((cfg1.win 2).blk t).view.emb j) 0) (0 : Fin 1) := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  exact congrArg₂ (· * ·) (congrArg (rowsArr V c) h0) (congrArg (weightArr V c) h1)

/-- An index of the output array is in point t's block iff each coordinate is in the block's range on its axis. -/
theorem mem_block (t : Fin cfg1.N) (i : S850000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v36).slice (win1_2.rect t)).set ↔ _
  rw [View.set_slice_whole, Rect.mem_set_unit]
  exact Iff.rfl

/-- Row r lies in the block of point r / 10000. -/
theorem covered (i : S850000x64.Idx) :
    ∃ t : Fin cfg1.N, (cfg1.win 2).flush t = true ∧ i ∈ ((cfg1.win 2).blk t).view.set := by
  have hi0 : (i 0).val < 850000 := (i 0).isLt
  have hi1 : (i 1).val < 64 := (i 1).isLt
  obtain ⟨t, ht⟩ := blockOnto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the run: the row scaling of the two arrays the region finds. -/
theorem final (c : Dev nD) : (dat1 V c).arrAt 2 cfg1.N = rowScale (rowsArr V c) (weightArr V c) :=
  (dat1 V c).arrAt_eq_of_cover 2 _ (fun t _ => flushed_eq V c t) (covered)

end Cert.KernelIdeal.Scale64

end
-- ==== Proof.Dense32.lean ====
/-
  The pallas_call of the second layer's dense step: its output array after the run, as one function of the arrays it
  finds. Grid point t holds rows 2000·t … 2000·t + 1999 of the aggregated first-layer output, the bias as one row and
  the whole second weight matrix; it adds the bias to every row, cuts the sum off from below at the floor (the word
  0x00000000), and writes back the product with the weight matrix: block t of biasFloorProd of the three arrays, since
  row r of the result needs row r of the left matrix only. The 25 blocks tile the 50000 rows.
-/
import proofs.«125170_j28656021799465_1_alg».proof.Proof.Gen.KernelIdeal.Frame
import proofs.«125170_j28656021799465_1_alg».proof.Proof.LibGraphConv

set_option maxRecDepth 16384

noncomputable section

namespace Cert.KernelIdeal.Dense32

open Cert.KernelIdeal Cert.KernelIdeal.Gen Idealize.ShloMosaic Idealize.ShloMosaic.TcCoe Idealize.ShloMosaic.ValueIdx
open Idealize.SL.Sem Idealize.ShloMosaic.Pipeline Cert.LibGraphConv
open scoped BigOperators

variable (V : (c : Dev nD) → (b : Ref sig .tc) → Buf (Elt Ideal) ((c : Thread nD τ).loc b))

/-- The aggregated first-layer output as the region finds it. -/
abbrev aggArr (c : Dev nD) : FVec Ideal S50000x64 .f32 := V c main_v39
/-- The bias, as one row, as the region finds it. -/
abbrev biasArr (c : Dev nD) : FVec Ideal S1x64 .f32 := V c main_v40
/-- The second weight matrix as the region finds it. -/
abbrev coefArr (c : Dev nD) : FVec Ideal S64x32 .f32 := V c main_arg4

/-- The floor of the cut-off: the float word of zero, read at the ideal values. -/
abbrev floorVal : EReal := Ideal.ofBits .f32 0x00000000#32

theorem zeroOff : (![0, 0] : Fin 2 → Nat) = fun _ => 0 := funext fun a => by fin_cases a <;> rfl

/-- The body's one stored value is the shifted, cut-off product of its three loaded blocks. -/
theorem payload_eq (x0 : FVec Ideal S2000x64 .f32) (x1 : FVec Ideal S1x64 .f32) (x2 : FVec Ideal S64x32 .f32) :
    k2_pay1 x0 x1 x2 = biasFloorProd floorVal x0 x1 x2 :=
  biasFloorProd_block dot_S2000x64_S64x32_S2000x32_1_0_0_1_n_n rfl rfl rfl rfl rfl rfl rfl rfl none bitsLt_bf16_f32 0x00000000#32 x0 x1 x2 _ _ _

/-- At point t the left matrix's and the output's windows sit at block row t, the bias's and the weight matrix's at
    their one block. -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every block row is some point's. -/
theorem blockOnto : ∀ q0 : Fin 25, ∃ t : Fin cfg2.N, win2_3.index t = ![q0.val, 0] :=
  (by decide +kernel : ∀ q0 : Fin 25, ∃ t : Fin grid2.N, win2_3.index t = ![q0.val, 0])

/-- What point t writes back is block t of the shifted, cut-off product of the three arrays. -/
theorem flushed_eq (c : Dev nD) (t : Fin cfg2.N) :
    (dat2 V c).flushed 3 t = ((cfg2.win 3).blk t).view.read (Elt Ideal) (biasFloorProd floorVal (aggArr V c) (biasArr V c) (coefArr V c)) := by
  show (cfg2.win 3).cut (grid2.coords t) ((dat2 V c).after 3 t) = _
  rw [after2_3]
  unfold out2_3
  rw [View.canon_unit_zero zeroOff]
  simp only [View.ld_unit_zero (S := S2000x64) zeroOff, View.ld_unit_zero (S := S1x64) zeroOff, View.ld_unit_zero (S := S64x32) zeroOff]
  rw [payload_eq]
  obtain ⟨e0, e1, e2, e3, e4, e5, e6, e7⟩ := blockIndex t
  funext j
  show (∑ k : Fin 64, max (aggArr V c (((cfg2.win 0).blk t).view.emb (ix2 (j 0) k)) + biasArr V c (((cfg2.win 1).blk t).view.emb (ix2 (0 : Fin 1) k))) floorVal
          * coefArr V c (((cfg2.win 2).blk t).view.emb (ix2 k (j 1))))
      = ∑ k : Fin 64, max (aggArr V c (ix2 ((((cfg2.win 3).blk t).view.emb j) 0) k) + biasArr V c (ix2 (0 : Fin 1) k)) floorVal
          * coefArr V c (ix2 k ((((cfg2.win 3).blk t).view.emb j) 1))
  refine Finset.sum_congr rfl fun k _ => ?_
  have h0 : ((cfg2.win 0).blk t).view.emb (ix2 (j 0) k) = ix2 ((((cfg2.win 3).blk t).view.emb j) 0) k := by
    funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 64 + 1 * k.val = k.val; omega
  have h1 : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 64 + 1 * k.val = k.val; omega
  have h2 : ((cfg2.win 2).blk t).view.emb (ix2 k (j 1)) = ix2 k ((((cfg2.win 3).blk t).view.emb j) 1) := by
    funext a; apply Fin.ext
    match a with
    | ⟨0, _⟩ => show win2_2.index t (0 : Fin 2) * 64 + 1 * k.val = k.val; omega
    | ⟨1, _⟩ => show win2_2.index t (1 : Fin 2) * 32 + 1 * (j 1).val = win2_3.index t (1 : Fin 2) * 32 + 1 * (j 1).val; omega
  exact congrArg₂ (· * ·) (congrArg (fun x => max x floorVal) (congrArg₂ (· + ·) (congrArg (aggArr V c) h0) (congrArg (biasArr V c) h1)))
    (congrArg (coefArr V c) h2)

/-- An index of the output array is in point t's block iff each coordinate is in the block's range on its axis. -/
theorem mem_block (t : Fin cfg2.N) (i : S50000x32.Idx) :
    i ∈ ((cfg2.win 3).blk t).view.set ↔ ∀ a : Fin 2, win2_3.index t a * S2000x32.size a ≤ (i a).val ∧ (i a).val < win2_3.index t a * S2000x32.size a + S2000x32.size a := by
  show i ∈ ((View.whole main_v41).slice (win2_3.rect t)).set ↔ _
  rw [View.set_slice_whole, Rect.mem_set_unit]
  exact Iff.rfl

/-- Row r lies in the block of point r / 2000. -/
theorem covered (i : S50000x32.Idx) :
    ∃ t : Fin cfg2.N, (cfg2.win 3).flush t = true ∧ i ∈ ((cfg2.win 3).blk t).view.set := by
  have hi0 : (i 0).val < 50000 := (i 0).isLt
  have hi1 : (i 1).val < 32 := (i 1).isLt
  obtain ⟨t, ht⟩ := blockOnto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 32 ≤ (i 1).val ∧ (i 1).val < win2_3.index t (1 : Fin 2) * 32 + 32; omega

/-- The output array after the run: the shifted, cut-off product of the three arrays the region finds. -/
theorem final (c : Dev nD) : (dat2 V c).arrAt 3 cfg2.N = biasFloorProd floorVal (aggArr V c) (biasArr V c) (coefArr V c) :=
  (dat2 V c).arrAt_eq_of_cover 3 _ (fun t _ => flushed_eq V c t) (covered)

end Cert.KernelIdeal.Dense32

end
-- ==== Proof.RefStages.lean ====
/-
  The reference program's steps that stand where the kernel program has its four pallas_calls, written with the same
  whole-matrix functions: the first dense step is a matrix product; a gathered matrix times the edge weights broadcast to a
  column and then along the rows is the row scaling by the weights reshaped to a column; the second dense step, after the
  bias is broadcast to every row and the sum cut off from below at a matrix of the float word zero, is the shifted,
  cut-off product; and a vector broadcast to one row is that vector reshaped to one row. The reference computes the edge
  weights twice, by the same operations on the same edge list.
-/
import proofs.«125170_j28656021799465_1_alg».proof.Proof.Gen.ReferenceIdeal.Read
import proofs.«125170_j28656021799465_1_alg».proof.Proof.LibGraphConv

noncomputable section

namespace Cert.ReferenceIdeal.Stages

open Cert.ReferenceIdeal Cert.ReferenceIdeal.Gen Cert.ReferenceIdeal.Read Idealize.ShloMosaic Idealize.ShloMosaic.ValueIdx Cert.LibGraphConv

/-- The floor of the cut-off: the float word of zero, read at the ideal values. -/
abbrev floorVal : EReal := Ideal.ofBits .f32 0x00000000#32

variable (x0 : (⟨S50000x256, .f32⟩ : BufTy).Contents (Elt Ideal)) (x1 : (⟨S2x800000, .i32⟩ : BufTy).Contents (Elt Ideal))
  (x2 : (⟨S256x64, .f32⟩ : BufTy).Contents (Elt Ideal)) (x3 : (⟨S64, .f32⟩ : BufTy).Contents (Elt Ideal))
  (x4 : (⟨S64x32, .f32⟩ : BufTy).Contents (Elt Ideal)) (x5 : (⟨S32, .f32⟩ : BufTy).Contents (Elt Ideal))

/-- The first dense step is the matrix product of the features and the first weight matrix. -/
theorem dense1 : val_main_v7 (F := Ideal) x0 x2 = matProd x0 x2 :=
  hostProd_eq dot_S50000x256_S256x64_S50000x64_1_0_0_1_n_n rfl rfl rfl rfl rfl rfl rfl rfl none x0 x2

/-- The first layer's messages: the gathered rows scaled by the edge weights. -/
theorem scale1 (h : S850000.ShapeCasts S850000x1) :
    val_main_v37 (F := Ideal) x0 x1 x2
      = rowScale (val_main_v34 (F := Ideal) x0 x1 x2) (shapeCast S850000x1 (val_main_v27 (F := Ideal) x1) h) := by
  unfold val_main_v37
  refine hostRowScale_eq _ _ _ fun p q => ?_
  rw [val_main_v36_apply, val_main_v35_apply]
  refine (shapeCast_apply (val_main_v27 (F := Ideal) x1) h (ix2 p (0 : Fin 1)) (idx_main_v35 (idx_main_v36 (ix2 p q))) ?_).symm
  rw [Shape.rowMajor_val_one, Shape.rowMajor_val_two]
  show p.val = p.val * 1 + 0
  omega

/-- The second dense step: bias added to every row, cut off from below at zero's word, times the second weight matrix. -/
theorem dense2 (h : S64.ShapeCasts S1x64) :
    val_main_v45 (F := Ideal) x0 x1 x2 x3 x4
      = biasFloorProd floorVal (val_main_v40 (F := Ideal) x0 x1 x2) (shapeCast S1x64 x3 h) x4 := by
  unfold val_main_v45 val_main_v44 val_main_v43
  refine hostBiasFloorProd_eq dot_S50000x64_S64x32_S50000x32_1_0_0_1_n_n rfl rfl rfl rfl rfl rfl rfl rfl none floorVal _ _ _ _ x4
    (fun p k => ?_) (fun i => ?_)
  · rw [val_main_v42_apply, val_main_v41_apply]
    refine (shapeCast_apply x3 h (ix2 (0 : Fin 1) k) (idx_main_v41 (idx_main_v42 (ix2 p k))) ?_).symm
    rw [Shape.rowMajor_val_one, Shape.rowMajor_val_two]
    show k.val = 0 * 64 + k.val
    omega
  · rw [val_main_call0_v0_apply]
    rfl

/-- The second computation of the edge weights is the first: the same operations on the same edge list. -/
theorem weights_again : val_main_v65 (F := Ideal) x1 = val_main_v27 (F := Ideal) x1 := rfl

/-- The second layer's messages: the gathered rows scaled by the edge weights. -/
theorem scale2 (h : S850000.ShapeCasts S850000x1) :
    val_main_v75 (F := Ideal) x0 x1 x2 x3 x4
      = rowScale (val_main_v72 (F := Ideal) x0 x1 x2 x3 x4) (shapeCast S850000x1 (val_main_v27 (F := Ideal) x1) h) := by
  unfold val_main_v75
  refine hostRowScale_eq _ _ _ fun p q => ?_
  rw [val_main_v74_apply, val_main_v73_apply, weights_again]
  refine (shapeCast_apply (val_main_v27 (F := Ideal) x1) h (ix2 p (0 : Fin 1)) (idx_main_v73 (idx_main_v74 (ix2 p q))) ?_).symm
  rw [Shape.rowMajor_val_one, Shape.rowMajor_val_two]
  show p.val = p.val * 1 + 0
  omega

/-- The second bias broadcast to one row is the bias reshaped to one row. -/
theorem biasRow (h : S32.ShapeCasts S1x32) : val_main_v79 (F := Ideal) x5 = shapeCast S1x32 x5 h := by
  funext i
  rw [val_main_v79_apply]
  refine (shapeCast_apply x5 h i (idx_main_v79 i) ?_).symm
  rw [Shape.rowMajor_val_one, Shape.rowMajor_val_two]
  show (i 1).val = (i 0).val * 32 + (i 1).val
  have h0 : (i 0).val < 1 := (i 0).isLt
  omega

/-- The result: the aggregated second-layer messages plus the second bias, the bias first reshaped to one row and then
    broadcast to every row. -/
theorem out_eq (h : S32.ShapeCasts S1x32) :
    val_main_v81 (F := Ideal) x0 x1 x2 x3 x4 x5
      = addf (F := Ideal) (φ := .f32) (val_main_v78 (F := Ideal) x0 x1 x2 x3 x4)
          (broadcastInDim S50000x32 ![0, 1] bcast_S1x32_S50000x32_0_1 (shapeCast S1x32 x5 h)) := by
  unfold val_main_v81 val_main_v80
  rw [biasRow x5 h]

end Cert.ReferenceIdeal.Stages

end
-- ==== Proof.Bridge.lean ====
/-
  The kernel program's result, read back through the run: at every boundary between a stretch of host operations and a
  pallas_call, the buffers the later steps read hold the same values as the matching steps of the reference program,
  written as functions of the six arguments. The host steps are the same operations on both sides (edge lists with the
  self-loops appended, degree by a scatter-add of ones, its inverse square root gathered at both ends of every edge and
  multiplied, gathers of rows, scatter-adds of messages); the four pallas_calls stand where the reference has a matrix
  product, a product with a broadcast column, a shifted and cut-off matrix product, and a product with a broadcast
  column again.
-/
import proofs.«125170_j28656021799465_1_alg».proof.Proof.Gen.KernelIdeal.Frame
import proofs.«125170_j28656021799465_1_alg».proof.Proof.Gen.ReferenceIdeal.Read
import proofs.«125170_j28656021799465_1_alg».proof.Proof.Dense64
import proofs.«125170_j28656021799465_1_alg».proof.Proof.Scale64
import proofs.«125170_j28656021799465_1_alg».proof.Proof.Dense32
import proofs.«125170_j28656021799465_1_alg».proof.Proof.Scale32
import proofs.«125170_j28656021799465_1_alg».proof.Proof.RefStages
import proofs.«125170_j28656021799465_1_alg».proof.Proof.LibGraphConv

set_option maxRecDepth 16384

noncomputable section

namespace Cert.KernelIdeal.Bridge

open Cert.KernelIdeal Cert.KernelIdeal.Gen Idealize.ShloMosaic Idealize.ShloMosaic.TcCoe Idealize.ShloMosaic.ValueIdx
open Idealize.SL.Sem Idealize.ShloMosaic.StableHlo Cert.LibGraphConv
open Cert.ReferenceIdeal.Read (val_main_v3 val_main_v6 val_main_v7 val_main_v27 val_main_v34 val_main_v37 val_main_v40
  val_main_v45 val_main_v65 val_main_v72 val_main_v75 val_main_v78 val_main_v80 val_main_v81)

variable (m : (ℓ : Loc nD τ sig) → Buf (Elt Ideal) ℓ) (ρ : Dev nD → PrngReg)

/-- The six arguments as launched: node features, edge list, the two weight matrices and the two biases. -/
abbrev x0 (c : Dev nD) : (⟨S50000x256, .f32⟩ : BufTy).Contents (Elt Ideal) := m ((c : Thread nD τ).loc main_arg0)
abbrev x1 (c : Dev nD) : (⟨S2x800000, .i32⟩ : BufTy).Contents (Elt Ideal) := m ((c : Thread nD τ).loc main_arg1)
abbrev x2 (c : Dev nD) : (⟨S256x64, .f32⟩ : BufTy).Contents (Elt Ideal) := m ((c : Thread nD τ).loc main_arg2)
abbrev x3 (c : Dev nD) : (⟨S64, .f32⟩ : BufTy).Contents (Elt Ideal) := m ((c : Thread nD τ).loc main_arg3)
abbrev x4 (c : Dev nD) : (⟨S64x32, .f32⟩ : BufTy).Contents (Elt Ideal) := m ((c : Thread nD τ).loc main_arg4)
abbrev x5 (c : Dev nD) : (⟨S32, .f32⟩ : BufTy).Contents (Elt Ideal) := m ((c : Thread nD τ).loc main_arg5)

/-! ## Before the first pallas_call -/

/-- The source ends of the edges, self-loops appended. -/
theorem src1 (c : Dev nD) : W1 m ρ c (Proc.devRef .tc main_v3) = val_main_v3 (x1 m c) := by
  dsimp only [W1, hostOps0]
  after_results
  rfl

/-- The target ends of the edges, self-loops appended. -/
theorem dst1 (c : Dev nD) : W1 m ρ c (Proc.devRef .tc main_v6) = val_main_v6 (x1 m c) := by
  dsimp only [W1, hostOps0]
  after_results
  rfl

/-- The edge weights as a column: the reference's edge weights, reshaped. -/
theorem weight1 (c : Dev nD) :
    W1 m ρ c (Proc.devRef .tc main_v27) = shapeCast S850000x1 (val_main_v27 (x1 m c)) shapeCasts_S850000_S850000x1 := by
  dsimp only [W1, hostOps0]
  after_results_simp
  rfl

theorem feat1 (c : Dev nD) : W1 m ρ c (Proc.devRef .tc main_arg0) = x0 m c := by
  dsimp only [W1, hostOps0]
  after_results

theorem coef1 (c : Dev nD) : W1 m ρ c (Proc.devRef .tc main_arg2) = x2 m c := by
  dsimp only [W1, hostOps0]
  after_results

theorem bias1_1 (c : Dev nD) : W1 m ρ c (Proc.devRef .tc main_arg3) = x3 m c := by
  dsimp only [W1, hostOps0]
  after_results

theorem coef2_1 (c : Dev nD) : W1 m ρ c (Proc.devRef .tc main_arg4) = x4 m c := by
  dsimp only [W1, hostOps0]
  after_results

theorem bias2_1 (c : Dev nD) : W1 m ρ c (Proc.devRef .tc main_arg5) = x5 m c := by
  dsimp only [W1, hostOps0]
  after_results

/-- The edge weights as a column, in the reference's terms. -/
abbrev weightCol (c : Dev nD) : FVec Ideal S850000x1 .f32 :=
  shapeCast S850000x1 (val_main_v27 (F := Ideal) (x1 m c)) shapeCasts_S850000_S850000x1

/-! ## The first pallas_call: the features times the first weight matrix -/

theorem dense2 (c : Dev nD) : W2 m ρ c (Proc.devRef .tc main_v28) = val_main_v7 (x0 m c) (x2 m c) :=
  (W2_arr m ρ c 2).trans ((Dense64.final (V1 m ρ) c).trans
    ((congrArg₂ (matProd (M := 50000) (K := 256) (N := 64)) (feat1 m ρ c) (coef1 m ρ c)).trans
      (Cert.ReferenceIdeal.Stages.dense1 (x0 m c) (x2 m c)).symm))

/-- What the first pallas_call leaves alone. -/
theorem keep2 (c : Dev nD) : W2 m ρ c (Proc.devRef .tc main_v3) = val_main_v3 (x1 m c)
    ∧ W2 m ρ c (Proc.devRef .tc main_v6) = val_main_v6 (x1 m c)
    ∧ W2 m ρ c (Proc.devRef .tc main_v27) = weightCol m c
    ∧ W2 m ρ c (Proc.devRef .tc main_arg3) = x3 m c
    ∧ W2 m ρ c (Proc.devRef .tc main_arg4) = x4 m c
    ∧ W2 m ρ c (Proc.devRef .tc main_arg5) = x5 m c :=
  ⟨(W2_of_ne m ρ c main_v3 (by decide)).trans (src1 m ρ c), (W2_of_ne m ρ c main_v6 (by decide)).trans (dst1 m ρ c),
   (W2_of_ne m ρ c main_v27 (by decide)).trans (weight1 m ρ c), (W2_of_ne m ρ c main_arg3 (by decide)).trans (bias1_1 m ρ c),
   (W2_of_ne m ρ c main_arg4 (by decide)).trans (coef2_1 m ρ c), (W2_of_ne m ρ c main_arg5 (by decide)).trans (bias2_1 m ρ c)⟩

/-! ## Gathering the rows at the source ends -/

theorem rows3 (c : Dev nD) : W3 m ρ c (Proc.devRef .tc main_v35) = val_main_v34 (x0 m c) (x1 m c) (x2 m c) := by
  have hd := dense2 m ρ c
  have hs := (keep2 m ρ c).1
  dsimp only [W3, hostOps1]
  after_results_simp
  rw [hd, hs]
  rfl

theorem keep3 (c : Dev nD) : W3 m ρ c (Proc.devRef .tc main_v3) = val_main_v3 (x1 m c)
    ∧ W3 m ρ c (Proc.devRef .tc main_v6) = val_main_v6 (x1 m c)
    ∧ W3 m ρ c (Proc.devRef .tc main_v27) = weightCol m c
    ∧ W3 m ρ c (Proc.devRef .tc main_arg3) = x3 m c
    ∧ W3 m ρ c (Proc.devRef .tc main_arg4) = x4 m c
    ∧ W3 m ρ c (Proc.devRef .tc main_arg5) = x5 m c := by
  obtain ⟨h3, h6, h27, ha3, ha4, ha5⟩ := keep2 m ρ c
  refine ⟨?_, ?_, ?_, ?_, ?_, ?_⟩
  · dsimp only [W3, hostOps1]; after_results_simp; exact h3
  · dsimp only [W3, hostOps1]; after_results_simp; exact h6
  · dsimp only [W3, hostOps1]; after_results_simp; exact h27
  · dsimp only [W3, hostOps1]; after_results_simp; exact ha3
  · dsimp only [W3, hostOps1]; after_results_simp; exact ha4
  · dsimp only [W3, hostOps1]; after_results_simp; exact ha5

/-! ## The second pallas_call: the first layer's messages -/

theorem msg4 (c : Dev nD) : W4 m ρ c (Proc.devRef .tc main_v36) = val_main_v37 (x0 m c) (x1 m c) (x2 m c) :=
  (W4_arr m ρ c 2).trans ((Scale64.final (V3 m ρ) c).trans
    ((congrArg₂ (rowScale (E := 850000) (n := 64)) (rows3 m ρ c) (keep3 m ρ c).2.2.1).trans
      (Cert.ReferenceIdeal.Stages.scale1 (x0 m c) (x1 m c) (x2 m c) shapeCasts_S850000_S850000x1).symm))

theorem keep4 (c : Dev nD) : W4 m ρ c (Proc.devRef .tc main_v3) = val_main_v3 (x1 m c)
    ∧ W4 m ρ c (Proc.devRef .tc main_v6) = val_main_v6 (x1 m c)
    ∧ W4 m ρ c (Proc.devRef .tc main_v27) = weightCol m c
    ∧ W4 m ρ c (Proc.devRef .tc main_arg3) = x3 m c
    ∧ W4 m ρ c (Proc.devRef .tc main_arg4) = x4 m c
    ∧ W4 m ρ c (Proc.devRef .tc main_arg5) = x5 m c :=
  have h := keep3 m ρ c
  ⟨(W4_of_ne m ρ c main_v3 (by decide)).trans h.1, (W4_of_ne m ρ c main_v6 (by decide)).trans h.2.1,
   (W4_arr m ρ c 1).trans (((dat1 (V3 m ρ) c).arrAt_in 1 rfl _).trans ((A_eq1 (V3 m ρ) c 1).trans h.2.2.1)), (W4_of_ne m ρ c main_arg3 (by decide)).trans h.2.2.2.1,
   (W4_of_ne m ρ c main_arg4 (by decide)).trans h.2.2.2.2.1, (W4_of_ne m ρ c main_arg5 (by decide)).trans h.2.2.2.2.2⟩

/-! ## Adding the messages up at the target ends, and the bias as a row -/

theorem agg5 (c : Dev nD) : W5 m ρ c (Proc.devRef .tc main_v39) = val_main_v40 (x0 m c) (x1 m c) (x2 m c) := by
  have hm := msg4 m ρ c
  have hd := (keep4 m ρ c).2.1
  dsimp only [W5, hostOps2]
  after_results_simp
  rw [hm, hd]
  rfl

theorem biasRow5 (c : Dev nD) : W5 m ρ c (Proc.devRef .tc main_v40) = shapeCast S1x64 (x3 m c) shapeCasts_S64_S1x64 := by
  have hb := (keep4 m ρ c).2.2.2.1
  dsimp only [W5, hostOps2]
  after_results_simp
  rw [hb]
  rfl

theorem keep5 (c : Dev nD) : W5 m ρ c (Proc.devRef .tc main_v3) = val_main_v3 (x1 m c)
    ∧ W5 m ρ c (Proc.devRef .tc main_v6) = val_main_v6 (x1 m c)
    ∧ W5 m ρ c (Proc.devRef .tc main_v27) = weightCol m c
    ∧ W5 m ρ c (Proc.devRef .tc main_arg4) = x4 m c
    ∧ W5 m ρ c (Proc.devRef .tc main_arg5) = x5 m c := by
  obtain ⟨h3, h6, h27, ha3, ha4, ha5⟩ := keep4 m ρ c
  refine ⟨?_, ?_, ?_, ?_, ?_⟩
  · dsimp only [W5, hostOps2]; after_results_simp; exact h3
  · dsimp only [W5, hostOps2]; after_results_simp; exact h6
  · dsimp only [W5, hostOps2]; after_results_simp; exact h27
  · dsimp only [W5, hostOps2]; after_results_simp; exact ha4
  · dsimp only [W5, hostOps2]; after_results_simp; exact ha5

/-! ## The third pallas_call: bias, cut-off and the second weight matrix -/

theorem hid6 (c : Dev nD) :
    W6 m ρ c (Proc.devRef .tc main_v41) = val_main_v45 (x0 m c) (x1 m c) (x2 m c) (x3 m c) (x4 m c) :=
  (W6_arr m ρ c 3).trans ((Dense32.final (V5 m ρ) c).trans
    ((congr (congr (congrArg (biasFloorProd (M := 50000) (K := 64) (N := 32) Dense32.floorVal) (agg5 m ρ c)) (biasRow5 m ρ c))
        (keep5 m ρ c).2.2.2.1).trans
      (Cert.ReferenceIdeal.Stages.dense2 (x0 m c) (x1 m c) (x2 m c) (x3 m c) (x4 m c) shapeCasts_S64_S1x64).symm))

theorem keep6 (c : Dev nD) : W6 m ρ c (Proc.devRef .tc main_v3) = val_main_v3 (x1 m c)
    ∧ W6 m ρ c (Proc.devRef .tc main_v6) = val_main_v6 (x1 m c)
    ∧ W6 m ρ c (Proc.devRef .tc main_v27) = weightCol m c
    ∧ W6 m ρ c (Proc.devRef .tc main_arg5) = x5 m c :=
  have h := keep5 m ρ c
  ⟨(W6_of_ne m ρ c main_v3 (by decide)).trans h.1, (W6_of_ne m ρ c main_v6 (by decide)).trans h.2.1,
   (W6_of_ne m ρ c main_v27 (by decide)).trans h.2.2.1, (W6_of_ne m ρ c main_arg5 (by decide)).trans h.2.2.2.2⟩

/-! ## Gathering the second layer's rows -/

theorem rows7 (c : Dev nD) :
    W7 m ρ c (Proc.devRef .tc main_v48) = val_main_v72 (x0 m c) (x1 m c) (x2 m c) (x3 m c) (x4 m c) := by
  have hh := hid6 m ρ c
  have hs := (keep6 m ρ c).1
  dsimp only [W7, hostOps3]
  after_results_simp
  rw [hh, hs]
  rfl

theorem keep7 (c : Dev nD) : W7 m ρ c (Proc.devRef .tc main_v6) = val_main_v6 (x1 m c)
    ∧ W7 m ρ c (Proc.devRef .tc main_v27) = weightCol m c
    ∧ W7 m ρ c (Proc.devRef .tc main_arg5) = x5 m c := by
  obtain ⟨h3, h6, h27, ha5⟩ := keep6 m ρ c
  refine ⟨?_, ?_, ?_⟩
  · dsimp only [W7, hostOps3]; after_results_simp; exact h6
  · dsimp only [W7, hostOps3]; after_results_simp; exact h27
  · dsimp only [W7, hostOps3]; after_results_simp; exact ha5

/-! ## The fourth pallas_call: the second layer's messages -/

theorem msg8 (c : Dev nD) :
    W8 m ρ c (Proc.devRef .tc main_v49) = val_main_v75 (x0 m c) (x1 m c) (x2 m c) (x3 m c) (x4 m c) :=
  (W8_arr m ρ c 2).trans ((Scale32.final (V7 m ρ) c).trans
    ((congrArg₂ (rowScale (E := 850000) (n := 32)) (rows7 m ρ c) (keep7 m ρ c).2.1).trans
      (Cert.ReferenceIdeal.Stages.scale2 (x0 m c) (x1 m c) (x2 m c) (x3 m c) (x4 m c) shapeCasts_S850000_S850000x1).symm))

theorem keep8 (c : Dev nD) : W8 m ρ c (Proc.devRef .tc main_v6) = val_main_v6 (x1 m c)
    ∧ W8 m ρ c (Proc.devRef .tc main_arg5) = x5 m c :=
  have h := keep7 m ρ c
  ⟨(W8_of_ne m ρ c main_v6 (by decide)).trans h.1, (W8_of_ne m ρ c main_arg5 (by decide)).trans h.2.2⟩

/-! ## The result -/

/-- The kernel program's result buffer after the run holds the reference program's result, as one function of the six
    arguments. -/
theorem result9 (c : Dev nD) :
    W9 m ρ c (Proc.devRef .tc main_v55) = val_main_v81 (x0 m c) (x1 m c) (x2 m c) (x3 m c) (x4 m c) (x5 m c) := by
  have hm := msg8 m ρ c
  obtain ⟨hd, hb⟩ := keep8 m ρ c
  dsimp only [W9, hostOps4]
  after_results_simp
  rw [hm, hd, hb, Cert.ReferenceIdeal.Stages.out_eq (x0 m c) (x1 m c) (x2 m c) (x3 m c) (x4 m c) (x5 m c) shapeCasts_S32_S1x32]
  rfl

end Cert.KernelIdeal.Bridge

end
-- ==== Proof.lean ====
/-
  Two graph-convolution layers with a cut-off at zero between them, as a program with four pallas_calls and as plain
  host operations: both compute, from node features X, an edge list (self-loops appended), weight matrices W1, W2 and
  biases b1, b2,
      out = A (max (A (X W1) + b1, 0) W2) + b2,
  where A gathers rows at the source ends of the edges, scales row e by w(e) = d(src e)^(-1/2) · d(dst e)^(-1/2) (d the
  degree, counted by a scatter-add of ones) and adds the rows up at the target ends.
  In the kernel program the two matrix products (the second with the bias and the cut-off fused in front of it) and the two
  row scalings are pallas_calls, blocked over the rows; every other step is the same host operation as in the reference.
  At the ideal values narrowing a float to a shorter format is the identity and a product into a zero accumulator is the
  plain sum, so each pallas_call's output array is the reference's step read entry by entry: no law of arithmetic beyond
  that reading is used, and the precondition is not opened.
  The frames of the two kernel programs are the generated ones; the reference's frame is its generated run with the result
  dropped; the idealization rewrote nothing, so its conjunct is trivial.
-/
import proofs.«125170_j28656021799465_1_alg».proof.Defs
import proofs.«125170_j28656021799465_1_alg».proof.Proof.Gen.Kernel
import proofs.«125170_j28656021799465_1_alg».proof.Proof.Gen.Kernel.Skeleton
import proofs.«125170_j28656021799465_1_alg».proof.Proof.Gen.Kernel.Launch
import proofs.«125170_j28656021799465_1_alg».proof.Proof.Gen.Kernel.Points
import proofs.«125170_j28656021799465_1_alg».proof.Proof.Gen.Kernel.Frame
import proofs.«125170_j28656021799465_1_alg».proof.Proof.Gen.KernelIdeal
import proofs.«125170_j28656021799465_1_alg».proof.Proof.Gen.KernelIdeal.Skeleton
import proofs.«125170_j28656021799465_1_alg».proof.Proof.Gen.KernelIdeal.Launch
import proofs.«125170_j28656021799465_1_alg».proof.Proof.Gen.KernelIdeal.Points
import proofs.«125170_j28656021799465_1_alg».proof.Proof.Gen.KernelIdeal.Frame
import proofs.«125170_j28656021799465_1_alg».proof.Proof.Gen.ReferenceIdeal
import proofs.«125170_j28656021799465_1_alg».proof.Proof.Gen.Pre_finite_inputs
import proofs.«125170_j28656021799465_1_alg».proof.Proof.Gen.ReferenceIdeal.Run
import proofs.«125170_j28656021799465_1_alg».proof.Proof.Gen.ReferenceIdeal.Read
import proofs.«125170_j28656021799465_1_alg».proof.Proof.RunNamed
import proofs.«125170_j28656021799465_1_alg».proof.Proof.Bridge
import Idealize.ShloMosaic.Adequacy
import Idealize.ShloMosaic.Init

noncomputable section

namespace Cert.Proof

open Idealize.ShloMosaic Idealize.SL.Sem

/-- Run from memories that agree on the six arguments, both programs end with the same result: the kernel program's
    result buffer is read back through its run as the reference's last step applied to the arguments, and the
    reference's run ends at that step of its own arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v81 (F := Ideal) (Cert.KernelIdeal.Bridge.x0 m c) (Cert.KernelIdeal.Bridge.x1 m c)
    (Cert.KernelIdeal.Bridge.x2 m c) (Cert.KernelIdeal.Bridge.x3 m c) (Cert.KernelIdeal.Bridge.x4 m c) (Cert.KernelIdeal.Bridge.x5 m c), ?_, ?_⟩
  · exact (θ_run Cert.KernelIdeal.defs _ _).mono
      (fun r h c => ⟨(h c).1.trans (Cert.KernelIdeal.Bridge.result9 m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v81_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
